-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel

variable [Facts]

def fn {F : FTy → Type} [FloatOps F] (main_arg0 : FVec F S32x4096x256 .f32) (main_arg1 : FVec F S32x4096x256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S32x4096x256 .f32 := Host.absf main_arg1
  let main_cst_0 : FVec F S_ .f32 := constant S_ .f32 0x7F800000#32
  let main_v5 : FVec F S32x4096x256 .f32 := broadcastInDim S32x4096x256 ![] bcast_S_S32x4096x256 main_cst_0
  let main_v6 : IVec S32x4096x256 1 := cmpf .olt main_v4 main_v5
  let main_c_1 : IVec S_ 1 := constantI S_ 1 1#1
  let main_v7 : IVec S_ 1 := (fun x v => Host.reduce IntOp.andi x v reducesTo_S32x4096x256_S_d0_1_2 h_S_) main_v6 main_c_1
  let main_v8 : IVec S_ 1 := andi main_v3 main_v7
  main_v8
-- ==== Kernel.lean ====
abbrev S32x4096x256 : Shape := ⟨3, ![32, 4096, 256]⟩
abbrev S32x256x256 : Shape := ⟨3, ![32, 256, 256]⟩
abbrev S1x4096x256 : Shape := ⟨3, ![1, 4096, 256]⟩
abbrev S1x256x256 : Shape := ⟨3, ![1, 256, 256]⟩
abbrev S4096x256 : Shape := ⟨2, ![4096, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S32x4096x256, .f32⟩
  | .hbm, ⟨1, _⟩ => ⟨S32x4096x256, .f32⟩
  | .hbm, ⟨2, _⟩ => ⟨S32x256x256, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x256x256, .f32⟩
  | .local _ .vmem, ⟨5, _⟩ => ⟨S1x256x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S4096x256_S4096x256_S256x256_0_0_1_1_n_n_wf : DotDims.WF S4096x256 S4096x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S32x4096x256.size a
  hwx0_0 : ∀ i : grid0.Coords, EltTy.bits .f32 = 32 ∨ (Rect.block (s := S32x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S32x4096x256.size a
  hwx0_1 : ∀ i : grid0.Coords, EltTy.bits .f32 = 32 ∨ (Rect.block (s := S32x4096x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S32x256x256.size a
  hwx0_2 : ∀ i : grid0.Coords, EltTy.bits .f32 = 32 ∨ (Rect.block (s := S32x256x256) S1x256x256.size (cc0_transform_2 i) (hinb0_2 i)).WholeWords (EltTy.packing .f32)

variable [Facts₀]

def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S32x256x256 : Shape := ⟨3, ![32, 256, 256]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32x4096x256, .f32⟩
  | .hbm, ⟨2, _⟩ => ⟨S32x256x256, .f32⟩
  | .hbm, ⟨3, _⟩ => ⟨S_, .f32⟩
  | .hbm, ⟨4, _⟩ => ⟨S32x256x256, .f32⟩
  | .hbm, ⟨5, _⟩ => ⟨S32x256x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S32x256x256 : S_.BroadcastsInDim S32x256x256 (![] : Fin 0 → Fin S32x256x256.rank)
  dot_S32x4096x256_S32x4096x256_S32x256x256_1_1_2_2_0_0_wf : DotDims.WF S32x4096x256 S32x4096x256 S32x256x256 [1] [1] [2] [2] [0] [0]

variable [Facts₀]

def dot_S32x4096x256_S32x4096x256_S32x256x256_1_1_2_2_0_0 : DotDims S32x4096x256 S32x4096x256 S32x256x256 where
  lhsContracting := [1]
  rhsContracting := [1]
  lhsNonContracting := [2]
  rhsNonContracting := [2]
  lhsBatch := [0]
  rhsBatch := [0]
  wf := dot_S32x4096x256_S32x4096x256_S32x256x256_1_1_2_2_0_0_wf

class Facts : Prop extends Facts₀ where

variable [Facts]
-- ==== Proof.OuterMeanSpec.lean ====
/-
  The mean of outer products, as one function of the two argument arrays.

  For arrays `A, B : [32, 4096, 256]` of extended reals the result at `(b, i, j)` is
  `(∑ s, A[b, s, i] · B[b, s, j]) · 2⁻¹²`: the contraction over the 4096 rows of batch `b`,
  scaled by the reciprocal of the number of rows. The kernel multiplies by the float word
  `0x39800000`, which is exactly `2⁻¹² = 1/4096`; the reference divides by the word `0x45800000`,
  which is exactly `4096`. On the extended reals division by a nonzero real IS the product with
  its reciprocal (at the infinities too), so the two scalings agree on every sum, finite or not:
  no finiteness of the inputs is needed.
-/
import Idealize.ShloMosaic.PureOps.Ideal
import Idealize.ShloMosaic.Lib.ValueIdx

noncomputable section

open scoped BigOperators

namespace Cert.OuterMean

open Idealize.ShloMosaic Idealize.ShloMosaic.ValueIdx

/-- The word `0x39800000` (biased exponent 115, zero fraction) denotes `2⁻¹² = 1/4096`. -/
theorem ofBits_inv_rows : Ideal.ofBits .f32 0x39800000#32 = ((1 / 4096 : ℝ) : EReal) := by
  simp [Ideal.ofBits, Ideal.ieee, -EReal.coe_mul]; norm_num

/-- The word `0x45800000` (biased exponent 139, zero fraction) denotes `2¹² = 4096`. -/
theorem ofBits_rows : Ideal.ofBits .f32 0x45800000#32 = ((4096 : ℝ) : EReal) := by
  simp [Ideal.ofBits, Ideal.ieee, -EReal.coe_mul]; norm_num

/-- Dividing an extended real by `4096` is multiplying it by `1/4096`, whatever it is. -/
theorem div_rows_eq_mul (x : EReal) :
    Ideal.div x (Ideal.ofBits .f32 0x45800000#32) = x * Ideal.ofBits .f32 0x39800000#32 := by
  rw [ofBits_rows, ofBits_inv_rows, Ideal.div_coe (by norm_num : (4096 : ℝ) ≠ 0)]

/-- The mean over the 4096 rows `s` of the outer products `A[b, s, ·] ⊗ B[b, s, ·]`, batch by batch. -/
def outerMean (A B : (⟨3, ![32, 4096, 256]⟩ : Shape).Idx → EReal) : (⟨3, ![32, 256, 256]⟩ : Shape).Idx → EReal :=
  fun i => (∑ s : Fin 4096, A (ix3 (i 0) s (i 1)) * B (ix3 (i 0) s (i 2))) * Ideal.ofBits .f32 0x39800000#32

end Cert.OuterMean

end
-- ==== Proof.OuterMeanBody.lean ====
/-
  What the kernel body stores, read at one index.

  The body loads the two [1, 4096, 256] blocks of a batch element, drops their unit axis, and
  contracts both over their 4096 rows: entry (p, q) of the product is the sum over rows k of
  (left block at (k, p)) · (right block at (k, q)), added onto a zero accumulator; the narrowing of
  the operands to bf16 changes nothing on the extended reals. The product is then scaled by the
  constant 2⁻¹² and stored with a unit axis put back in front.
-/
import proofs.«146229_j17875653886367_1_alg».proof.Proof.Gen.KernelIdeal.Skeleton
import proofs.«146229_j17875653886367_1_alg».proof.Proof.OuterMeanSpec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The contraction's operand indices -/

/-- Axis 0 of the left operand is the contracted one: it carries the contraction position. -/
theorem lhs_rows_0 (i : S256x256.Idx) (q : dot_S4096x256_S4096x256_S256x256_0_0_1_1_n_n.contr.Idx) :
    (dot_S4096x256_S4096x256_S256x256_0_0_1_1_n_n.lhsIdx i q 0).val = (q ⟨0, by decide⟩).val :=
  dot_S4096x256_S4096x256_S256x256_0_0_1_1_n_n.lhsIdx_val_of_single rfl i q
/-- Axis 1 of the left operand is the output's row. -/
theorem lhs_rows_1 (i : S256x256.Idx) (q : dot_S4096x256_S4096x256_S256x256_0_0_1_1_n_n.contr.Idx) :
    (dot_S4096x256_S4096x256_S256x256_0_0_1_1_n_n.lhsIdx i q 1).val = (i 0).val := by
  unfold DotDims.lhsIdx
  rw [dif_neg (show ¬(1 : Fin S4096x256.rank) ∈ dot_S4096x256_S4096x256_S256x256_0_0_1_1_n_n.lhsBatch by decide), dif_pos (show (1 : Fin S4096x256.rank) ∈ dot_S4096x256_S4096x256_S256x256_0_0_1_1_n_n.lhsNonContracting by decide)]
  rfl
/-- Axis 0 of the right operand is the contracted one too. -/
theorem rhs_rows_0 (i : S256x256.Idx) (q : dot_S4096x256_S4096x256_S256x256_0_0_1_1_n_n.contr.Idx) :
    (dot_S4096x256_S4096x256_S256x256_0_0_1_1_n_n.rhsIdx i q 0).val = (q ⟨0, by decide⟩).val :=
  dot_S4096x256_S4096x256_S256x256_0_0_1_1_n_n.rhsIdx_val_of_single rfl i q
/-- Axis 1 of the right operand is the output's column. -/
theorem rhs_rows_1 (i : S256x256.Idx) (q : dot_S4096x256_S4096x256_S256x256_0_0_1_1_n_n.contr.Idx) :
    (dot_S4096x256_S4096x256_S256x256_0_0_1_1_n_n.rhsIdx i q 1).val = (i 1).val := by
  unfold DotDims.rhsIdx
  rw [dif_neg (show ¬(1 : Fin S4096x256.rank) ∈ dot_S4096x256_S4096x256_S256x256_0_0_1_1_n_n.rhsBatch by decide), dif_pos (show (1 : Fin S4096x256.rank) ∈ dot_S4096x256_S4096x256_S256x256_0_0_1_1_n_n.rhsNonContracting by decide)]
  rfl

/-- The product of two [4096, 256] operands contracted over their rows, into a zero accumulator,
    at entry (p, q): the sum over the 4096 rows k of left (k, p) times right (k, q). -/
theorem contract_rows_apply (l r : FVec Ideal S4096x256 .bf16) (p q : Fin 256) :
    matmul dot_S4096x256_S4096x256_S256x256_0_0_1_1_n_n none l r (constant S256x256 .f32 0x00000000#32) (ix2 p q)
      = ∑ k : Fin 4096, l (ix2 k p) * r (ix2 k q) := by
  simp only [matmul]
  rw [Ideal.matmul_constant_zero_apply, ← Equiv.sum_comp (contrEquiv1 dot_S4096x256_S4096x256_S256x256_0_0_1_1_n_n 4096 rfl rfl).symm]
  refine Finset.sum_congr rfl fun k _ => ?_
  have hk := contrEquiv1_symm_val dot_S4096x256_S4096x256_S256x256_0_0_1_1_n_n 4096 rfl rfl k
  have el : dot_S4096x256_S4096x256_S256x256_0_0_1_1_n_n.lhsIdx (ix2 p q) ((contrEquiv1 dot_S4096x256_S4096x256_S256x256_0_0_1_1_n_n 4096 rfl rfl).symm k) = ix2 k p := funext fun a => Fin.ext (by
    match a with
    | ⟨0, _⟩ => exact (lhs_rows_0 _ _).trans hk
    | ⟨1, _⟩ => exact lhs_rows_1 _ _)
  have er : dot_S4096x256_S4096x256_S256x256_0_0_1_1_n_n.rhsIdx (ix2 p q) ((contrEquiv1 dot_S4096x256_S4096x256_S256x256_0_0_1_1_n_n 4096 rfl rfl).symm k) = ix2 k q := funext fun a => Fin.ext (by
    match a with
    | ⟨0, _⟩ => exact (rhs_rows_0 _ _).trans hk
    | ⟨1, _⟩ => exact rhs_rows_1 _ _)
  rw [el, er]

/-! ## The stored value at an index -/

/-- Entry (0, p, q) of what the body stores: the blocks' products summed over the rows, times 2⁻¹². -/
theorem stored_apply (x0 x1 : Vec Ideal S1x4096x256 .f32) (p q : Fin 256) :
    k0_pay1 (F := Ideal) x0 x1 (ix3 (0 : Fin 1) p q)
      = (∑ k : Fin 4096, x0 (ix3 (0 : Fin 1) k p) * x1 (ix3 (0 : Fin 1) k q)) * Ideal.ofBits .f32 0x39800000#32 := by
  unfold k0_pay1
  rw [shapeCast_ab_1ab_apply, mulf_apply, broadcast_apply, contract_rows_apply]
  simp only [truncf_apply, shapeCast_1ab_ab_apply]
  rfl

end Cert.KernelIdeal.Body

end
-- ==== Proof.OuterMeanKernel.lean ====
/-
  From blocks to the whole result array.

  The grid has one point per batch element. At point t each of the three windows is on block
  (t, 0, 0) of its array: the two inputs' blocks are batch element t of the arguments, whole, and
  the output's block is batch element t of the result, whole. So what point t writes back is
  block t of the mean of outer products of the two argument arrays (the body's stored value, read
  at an index, with each block entry traced back to its array entry), the 32 blocks cover the
  result array, and after the run the result array IS that function of the arguments.
-/
import proofs.«146229_j17875653886367_1_alg».proof.Proof.Gen.KernelIdeal.Value
import proofs.«146229_j17875653886367_1_alg».proof.Proof.OuterMeanBody
import Idealize.ShloMosaic.Lib.Pipeline.Value
import Idealize.ShloMosaic.Lib.ValueIdx

noncomputable section

open scoped BigOperators

namespace Cert.KernelIdeal.Arr

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- At grid point `t` every window is on block `(t, 0, 0)` of its array: batch element `t`, whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The left input's block at point `t` is batch element `t` of the first argument. -/
theorem left_block_apply (c : Dev nD) (t : Fin cfg0.N) (y : S1x4096x256.Idx) (i : S32x4096x256.Idx)
    (h0 : (i 0).val = t.val) (h1 : (i 1).val = (y 1).val) (h2 : (i 2).val = (y 2).val) :
    (iblk m c 0 t : Vec Ideal S1x4096x256 .f32) y = (V m c main_arg0 : S32x4096x256.Idx → EReal) i := by
  obtain ⟨e0, e1, e2, -⟩ := idx_facts t
  show (V m c main_arg0 : S32x4096x256.Idx → EReal) (((cfg0.win 0).blk t).view.emb y) = V m c main_arg0 i
  congr 1
  funext a
  apply Fin.ext
  match a with
  | ⟨0, _⟩ => show win0_0.index t (0 : Fin 3) * 1 + 1 * (y 0).val = (i 0).val; have hy : (y 0).val < 1 := (y 0).isLt; omega
  | ⟨1, _⟩ => show win0_0.index t (1 : Fin 3) * 4096 + 1 * (y 1).val = (i 1).val; omega
  | ⟨2, _⟩ => show win0_0.index t (2 : Fin 3) * 256 + 1 * (y 2).val = (i 2).val; omega

/-- The right input's block at point `t` is batch element `t` of the second argument. -/
theorem right_block_apply (c : Dev nD) (t : Fin cfg0.N) (y : S1x4096x256.Idx) (i : S32x4096x256.Idx)
    (h0 : (i 0).val = t.val) (h1 : (i 1).val = (y 1).val) (h2 : (i 2).val = (y 2).val) :
    (iblk m c 1 t : Vec Ideal S1x4096x256 .f32) y = (V m c main_arg1 : S32x4096x256.Idx → EReal) i := by
  obtain ⟨-, -, -, e0, e1, e2, -⟩ := idx_facts t
  show (V m c main_arg1 : S32x4096x256.Idx → EReal) (((cfg0.win 1).blk t).view.emb y) = V m c main_arg1 i
  congr 1
  funext a
  apply Fin.ext
  match a with
  | ⟨0, _⟩ => show win0_1.index t (0 : Fin 3) * 1 + 1 * (y 0).val = (i 0).val; have hy : (y 0).val < 1 := (y 0).isLt; omega
  | ⟨1, _⟩ => show win0_1.index t (1 : Fin 3) * 4096 + 1 * (y 1).val = (i 1).val; omega
  | ⟨2, _⟩ => show win0_1.index t (2 : Fin 3) * 256 + 1 * (y 2).val = (i 2).val; omega

/-- Where entry `y` of the output's block at point `t` lies in the result array: batch element `t`, same row and column. -/
theorem out_block_emb (t : Fin cfg0.N) (y : S1x256x256.Idx) :
    ((((cfg0.win 2).blk t).view.emb y : S32x256x256.Idx) 0).val = t.val
    ∧ ((((cfg0.win 2).blk t).view.emb y : S32x256x256.Idx) 1).val = (y 1).val
    ∧ ((((cfg0.win 2).blk t).view.emb y : S32x256x256.Idx) 2).val = (y 2).val := by
  obtain ⟨-, -, -, -, -, -, e0, e1, e2⟩ := idx_facts t
  have hy : (y 0).val < 1 := (y 0).isLt
  refine ⟨?_, ?_, ?_⟩
  · show win0_2.index t (0 : Fin 3) * 1 + 1 * (y 0).val = t.val; omega
  · show win0_2.index t (1 : Fin 3) * 256 + 1 * (y 1).val = (y 1).val; omega
  · show win0_2.index t (2 : Fin 3) * 256 + 1 * (y 2).val = (y 2).val; omega

/-- WHAT POINT `t` WRITES BACK is block `t` of the mean of outer products of the two argument arrays. -/
theorem flushed_eq (c : Dev nD) (t : Fin cfg0.N) :
    (dats m 0 c).flushed 2 t = ((cfg0.win 2).blk t).view.read (Elt Ideal)
      (Cert.OuterMean.outerMean (V m c main_arg0) (V m c main_arg1)) := by
  rw [Value.flushed2]
  unfold out0_2
  rw [View.canon_unit_zero hz]
  simp only [View.ld_unit_zero (S := S1x4096x256) hz]
  funext y
  obtain ⟨o0, o1, o2⟩ := out_block_emb t y
  show k0_pay1 (F := Ideal) (iblk m c 0 t) (iblk m c 1 t) y
    = Cert.OuterMean.outerMean (V m c main_arg0) (V m c main_arg1) (((cfg0.win 2).blk t).view.emb y)
  obtain ⟨u, p, q, rfl⟩ : ∃ (u : Fin 1) (p q : Fin 256), y = ix3 u p q := ⟨y 0, y 1, y 2, eq_ix3 y⟩
  obtain rfl : u = 0 := Subsingleton.elim _ _
  refine (Cert.KernelIdeal.Body.stored_apply _ _ p q).trans ?_
  unfold Cert.OuterMean.outerMean
  congr 1
  refine Finset.sum_congr rfl fun k _ => ?_
  rw [left_block_apply m c t (ix3 (0 : Fin 1) k p) (ix3 ((((cfg0.win 2).blk t).view.emb (ix3 (0 : Fin 1) p q) : S32x256x256.Idx) 0) k ((((cfg0.win 2).blk t).view.emb (ix3 (0 : Fin 1) p q) : S32x256x256.Idx) 1)) o0 rfl o1,
    right_block_apply m c t (ix3 (0 : Fin 1) k q) (ix3 ((((cfg0.win 2).blk t).view.emb (ix3 (0 : Fin 1) p q) : S32x256x256.Idx) 0) k ((((cfg0.win 2).blk t).view.emb (ix3 (0 : Fin 1) p q) : S32x256x256.Idx) 2)) o0 rfl o2]

/-- An index of the result array is in point `t`'s block iff each coordinate is in the block's range on its axis. -/
theorem mem_blk (t : Fin cfg0.N) (i : S32x256x256.Idx) :
    i ∈ ((cfg0.win 2).blk t).view.set ↔ ∀ a : Fin 3, win0_2.index t a * S1x256x256.size a ≤ (i a).val ∧ (i a).val < win0_2.index t a * S1x256x256.size a + S1x256x256.size a := by
  show i ∈ ((View.whole main_v0).slice (win0_2.rect t)).set ↔ _
  rw [View.set_slice_whole, Rect.mem_set_unit]
  exact Iff.rfl

/-- Every index of the result array is written back by the point of its batch element. -/
theorem cover (i : S32x256x256.Idx) : ∃ t : Fin cfg0.N, (cfg0.win 2).flush t = true ∧ i ∈ ((cfg0.win 2).blk t).view.set := by
  have hN : cfg0.N = 32 := N_0
  have hi0 : (i 0).val < 32 := (i 0).isLt
  have hi1 : (i 1).val < 256 := (i 1).isLt
  have hi2 : (i 2).val < 256 := (i 2).isLt
  refine ⟨⟨(i 0).val, by omega⟩, flush0_2 _, ?_⟩
  rw [mem_blk]
  obtain ⟨-, -, -, -, -, -, e0', e1, e2⟩ := idx_facts ⟨(i 0).val, by omega⟩
  have e0 : win0_2.index (⟨(i 0).val, by omega⟩ : Fin cfg0.N) (0 : Fin 3) = (i 0).val := e0'
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 256 ≤ (i 1).val ∧ (i 1).val < win0_2.index _ (1 : Fin 3) * 256 + 256; rw [e1]; omega
  | ⟨2, _⟩ => show win0_2.index _ (2 : Fin 3) * 256 ≤ (i 2).val ∧ (i 2).val < win0_2.index _ (2 : Fin 3) * 256 + 256; rw [e2]; omega

/-- THE RESULT ARRAY after the run is the mean of outer products of the argument arrays as launched. -/
theorem final (c : Dev nD) : (dats m 0 c).arrAt 2 cfg0.N
    = Cert.OuterMean.outerMean (m ((c : Thread nD τ).loc main_arg0)) (m ((c : Thread nD τ).loc main_arg1)) :=
  (dats m 0 c).arrAt_eq_of_cover 2 (Cert.OuterMean.outerMean (V m c main_arg0) (V m c main_arg1))
    (fun t _ => flushed_eq m c t) cover

/-- The kernel's run, read: the result array at the mean of outer products, the arguments unchanged. -/
theorem run : θ_run defs (onTc (τ := τ) (main (F := Ideal))) ⟨m, fun _ => 0, ρ⟩ fun r => ∀ c : Dev nD,
      r.2.mem ((c : Thread nD τ).loc main_v0) = Cert.OuterMean.outerMean (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Arr

end
-- ==== Proof.OuterMeanRef.lean ====
/-
  The reference computes the mean of outer products.

  The reference contracts the two arrays over their second axis, batch by batch, and divides every
  entry by the constant 4096. Read at an index (b, i, j): the sum over rows s of A[b, s, i] · B[b, s, j],
  divided by 4096, which on the extended reals is that sum times 2⁻¹².
-/
import proofs.«146229_j17875653886367_1_alg».proof.Proof.Gen.ReferenceIdeal.Read
import proofs.«146229_j17875653886367_1_alg».proof.Proof.OuterMeanSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result, as a function of its two arguments, is the mean of outer products. -/
theorem result_eq (x0 x1 : (⟨S32x4096x256, .f32⟩ : BufTy).Contents (Elt Ideal)) :
    val_main_v2 (F := Ideal) x0 x1 = Cert.OuterMean.outerMean x0 x1 := by
  funext i
  have el : ∀ k : Fin 4096, lidx_main_v0 i k = ix3 (i 0) k (i 1) := fun k => funext fun a => by
    match a with
    | ⟨0, _⟩ => rfl
    | ⟨1, _⟩ => rfl
    | ⟨2, _⟩ => rfl
  have er : ∀ k : Fin 4096, ridx_main_v0 i k = ix3 (i 0) k (i 2) := fun k => funext fun a => by
    match a with
    | ⟨0, _⟩ => rfl
    | ⟨1, _⟩ => rfl
    | ⟨2, _⟩ => rfl
  rw [val_main_v2_apply, val_main_v0_apply, val_main_v1_apply, val_main_cst_apply]
  simp only [el, er, Ideal.hostDivf_def, Ideal.ofBits_def]
  exact Cert.OuterMean.div_rows_eq_mul _

end Cert.ReferenceIdeal.RefValue

end
-- ==== Proof.lean ====
/-
  The mean of outer products: out[b] = (A[b]ᵀ · B[b]) / 4096 for A, B : [32, 4096, 256].

  The kernel runs one grid point per batch element: it contracts the two [4096, 256] blocks over
  their rows into a zero accumulator and multiplies by the constant 2⁻¹². The reference contracts
  the whole arrays batch by batch and divides by 4096. On the extended reals both are, at (b, i, j),
  the sum over rows s of A[b, s, i] · B[b, s, j] times 2⁻¹²: the two contractions are the same sum,
  and dividing by the nonzero real 4096 is multiplying by its reciprocal at every extended real, so
  the inputs' finiteness is never used. The idealization rewrote nothing, so it is preserved trivially.
-/
import proofs.«146229_j17875653886367_1_alg».proof.Defs
import proofs.«146229_j17875653886367_1_alg».proof.Proof.Gen.Kernel
import proofs.«146229_j17875653886367_1_alg».proof.Proof.Gen.Kernel.Skeleton
import proofs.«146229_j17875653886367_1_alg».proof.Proof.Gen.Kernel.Launch
import proofs.«146229_j17875653886367_1_alg».proof.Proof.Gen.Kernel.Points
import proofs.«146229_j17875653886367_1_alg».proof.Proof.Gen.Kernel.Frame
import proofs.«146229_j17875653886367_1_alg».proof.Proof.Gen.KernelIdeal
import proofs.«146229_j17875653886367_1_alg».proof.Proof.Gen.KernelIdeal.Skeleton
import proofs.«146229_j17875653886367_1_alg».proof.Proof.Gen.KernelIdeal.Launch
import proofs.«146229_j17875653886367_1_alg».proof.Proof.Gen.KernelIdeal.Points
import proofs.«146229_j17875653886367_1_alg».proof.Proof.Gen.KernelIdeal.Frame
import proofs.«146229_j17875653886367_1_alg».proof.Proof.Gen.ReferenceIdeal
import proofs.«146229_j17875653886367_1_alg».proof.Proof.Gen.Pre_finite_inputs
import proofs.«146229_j17875653886367_1_alg».proof.Proof.Gen.KernelIdeal.Value
import proofs.«146229_j17875653886367_1_alg».proof.Proof.Gen.ReferenceIdeal.Run
import proofs.«146229_j17875653886367_1_alg».proof.Proof.Gen.ReferenceIdeal.Read
import proofs.«146229_j17875653886367_1_alg».proof.Proof.OuterMeanSpec
import proofs.«146229_j17875653886367_1_alg».proof.Proof.OuterMeanBody
import proofs.«146229_j17875653886367_1_alg».proof.Proof.OuterMeanKernel
import proofs.«146229_j17875653886367_1_alg».proof.Proof.OuterMeanRef
import Idealize.ShloMosaic.Adequacy
import Idealize.ShloMosaic.Init

noncomputable section

namespace Cert.Proof.OuterMeanClaims

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the mean of outer products of the arguments they agree on. -/
theorem algebraic : Cert.algebraic_KernelIdeal_ReferenceIdeal := by
  intro m ρ m' ρ' _ hagree
  refine ⟨fun c => Cert.OuterMean.outerMean (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

end Cert.Proof.OuterMeanClaims

namespace Cert.Proof

theorem claim : Cert.Claim := ⟨Cert.Kernel.Gen.facts, Cert.KernelIdeal.Gen.facts, Cert.ReferenceIdeal.Gen.facts, Cert.Pre_finite_inputs.Gen.facts,
  OuterMeanClaims.frame_kernel, OuterMeanClaims.frame_kernel_ideal, OuterMeanClaims.frame_reference, OuterMeanClaims.preserves, OuterMeanClaims.algebraic⟩

end Cert.Proof

end
